-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S3200000 : Shape := ⟨1, ![3200000]⟩
abbrev S32x768 : Shape := ⟨2, ![32, 768]⟩
abbrev S32 : Shape := ⟨1, ![32]⟩
abbrev S8x32 : Shape := ⟨2, ![8, 32]⟩
abbrev S8 : Shape := ⟨1, ![8]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S32x768 : S_.BroadcastsInDim S32x768 (![] : Fin 0 → Fin S32x768.rank)
  reducesTo_S32x768_S_d0_1 : S32x768.ReducesTo [0, 1] S_
  bcast_S_S32 : S_.BroadcastsInDim S32 (![] : Fin 0 → Fin S32.rank)
  reducesTo_S32_S_d0 : S32.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8x32 .f32) (main_arg7 : FVec F S8x32 .f32) (main_arg8 : FVec F S8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S8x32 .f32 := Host.absf main_arg6
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S8x32 .f32 := Host.absf main_arg7
  let main_cst_8 : FVec F S_ .f32 := constant S_ .f32 0x7F800000#32
  let main_v25 : FVec F S8x32 .f32 := broadcastInDim S8x32 ![] bcast_S_S8x32 main_cst_8
  let main_v26 : IVec S8x32 1 := cmpf .olt main_v24 main_v25
  let main_c_9 : IVec S_ 1 := constantI S_ 1 1#1
  let main_v27 : IVec S_ 1 := (fun x v => Host.reduce IntOp.andi x v reducesTo_S8x32_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x768 .f32) (main_arg1 : IVec S3200000 32) (main_arg2 : IVec S3200000 32) (main_arg3 : FVec F S32x768 .f32) (main_arg4 : FVec F S32x768 .f32) (main_arg5 : FVec F S32 .f32) (main_arg6 : FVec F S8x32 .f32) (main_arg7 : FVec F S8x32 .f32) (main_arg8 : FVec F S8 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S32x768 .f32 := Host.absf main_arg3
  let main_cst_0 : FVec F S_ .f32 := constant S_ .f32 0x7F800000#32
  let main_v5 : FVec F S32x768 .f32 := broadcastInDim S32x768 ![] bcast_S_S32x768 main_cst_0
  let main_v6 : IVec S32x768 1 := cmpf .olt main_v4 main_v5
  let main_c_1 : IVec S_ 1 := constantI S_ 1 1#1
  let main_v7 : IVec S_ 1 := (fun x v => Host.reduce IntOp.andi x v reducesTo_S32x768_S_d0_1 h_S_) main_v6 main_c_1
  let main_v8 : IVec S_ 1 := andi main_v3 main_v7
  let main_v9 : FVec F S32x768 .f32 := Host.absf main_arg4
  let main_cst_2 : FVec F S_ .f32 := constant S_ .f32 0x7F800000#32
  let main_v10 : FVec F S32x768 .f32 := broadcastInDim S32x768 ![] bcast_S_S32x768 main_cst_2
  let main_v11 : IVec S32x768 1 := cmpf .olt main_v9 main_v10
  let main_c_3 : IVec S_ 1 := constantI S_ 1 1#1
  let main_v12 : IVec S_ 1 := (fun x v => Host.reduce IntOp.andi x v reducesTo_S32x768_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_v13 main_v16
-- ==== Kernel.lean ====
abbrev S100000x768 : Shape := ⟨2, ![100000, 768]⟩
abbrev S3200000 : Shape := ⟨1, ![3200000]⟩
abbrev S32x768 : Shape := ⟨2, ![32, 768]⟩
abbrev S32 : Shape := ⟨1, ![32]⟩
abbrev S8x32 : Shape := ⟨2, ![8, 32]⟩
abbrev S8 : Shape := ⟨1, ![8]⟩
abbrev S64x768 : Shape := ⟨2, ![64, 768]⟩
abbrev S768x64 : Shape := ⟨2, ![768, 64]⟩
abbrev S100000x64 : Shape := ⟨2, ![100000, 64]⟩
abbrev S4000x768 : Shape := ⟨2, ![4000, 768]⟩
abbrev S4000x64 : Shape := ⟨2, ![4000, 64]⟩
abbrev S100000x32 : Shape := ⟨2, ![100000, 32]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x32 : Shape := ⟨2, ![3200000, 32]⟩
abbrev S1x32 : Shape := ⟨2, ![1, 32]⟩
abbrev S16x32 : Shape := ⟨2, ![16, 32]⟩
abbrev S32x16 : Shape := ⟨2, ![32, 16]⟩
abbrev S100000x16 : Shape := ⟨2, ![100000, 16]⟩
abbrev S10000x32 : Shape := ⟨2, ![10000, 32]⟩
abbrev S10000x16 : Shape := ⟨2, ![10000, 16]⟩
abbrev S100000x8 : Shape := ⟨2, ![100000, 8]⟩
abbrev S3200000x8 : Shape := ⟨2, ![3200000, 8]⟩
abbrev S1x8 : Shape := ⟨2, ![1, 8]⟩

abbrev nBuf : Space → Nat
  | .hbm => 75
  | .vmem => 10
  | .smem => 0
  | _ => 0

abbrev bufTy : (tb : Table) → Fin (tcTables nBuf tb) → BufTy
  | .hbm, ⟨0, _⟩ => ⟨S100000x768, .f32⟩
  | .hbm, ⟨1, _⟩ => ⟨S3200000, .i32⟩
  | .hbm, ⟨2, _⟩ => ⟨S3200000, .i32⟩
  | .hbm, ⟨3, _⟩ => ⟨S32x768, .f32⟩
  | .hbm, ⟨4, _⟩ => ⟨S32x768, .f32⟩
  | .hbm, ⟨5, _⟩ => ⟨S32, .f32⟩
  | .hbm, ⟨6, _⟩ => ⟨S8x32, .f32⟩
  | .hbm, ⟨7, _⟩ => ⟨S8x32, .f32⟩
  | .hbm, ⟨8, _⟩ => ⟨S8, .f32⟩
  | .hbm, ⟨9, _⟩ => ⟨S64x768, .f32⟩
  | .hbm, ⟨10, _⟩ => ⟨S768x64, .f32⟩
  | .hbm, ⟨11, _⟩ => ⟨S768x64, .bf16⟩
  | .hbm, ⟨12, _⟩ => ⟨S100000x64, .f32⟩
  | .hbm, ⟨13, _⟩ => ⟨S100000x32, .f32⟩
  | .hbm, ⟨14, _⟩ => ⟨S100000x32, .f32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x32, .f32⟩
  | .hbm, ⟨37, _⟩ => ⟨S_, .f32⟩
  | .hbm, ⟨38, _⟩ => ⟨S100000x32, .f32⟩
  | .hbm, ⟨39, _⟩ => ⟨S3200000x1, .i32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S100000x32, .f32⟩
  | .hbm, ⟨49, _⟩ => ⟨S100000x32, .f32⟩
  | .hbm, ⟨50, _⟩ => ⟨S16x32, .f32⟩
  | .hbm, ⟨51, _⟩ => ⟨S32x16, .f32⟩
  | .hbm, ⟨52, _⟩ => ⟨S32x16, .bf16⟩
  | .hbm, ⟨53, _⟩ => ⟨S100000x16, .f32⟩
  | .hbm, ⟨54, _⟩ => ⟨S100000x8, .f32⟩
  | .hbm, ⟨55, _⟩ => ⟨S100000x8, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x8, .f32⟩
  | .hbm, ⟨65, _⟩ => ⟨S_, .f32⟩
  | .hbm, ⟨66, _⟩ => ⟨S100000x8, .f32⟩
  | .hbm, ⟨67, _⟩ => ⟨S3200000x1, .i32⟩
  | .hbm, ⟨68, _⟩ => ⟨S100000x8, .f32⟩
  | .hbm, ⟨69, _⟩ => ⟨S100000x8, .f32⟩
  | .hbm, ⟨70, _⟩ => ⟨S100000x8, .f32⟩
  | .hbm, ⟨71, _⟩ => ⟨S100000x8, .f32⟩
  | .hbm, ⟨72, _⟩ => ⟨S1x8, .f32⟩
  | .hbm, ⟨73, _⟩ => ⟨S100000x8, .f32⟩
  | .hbm, ⟨74, _⟩ => ⟨S100000x8, .f32⟩
  | .local _ .vmem, ⟨0, _⟩ => ⟨S4000x768, .f32⟩
  | .local _ .vmem, ⟨1, _⟩ => ⟨S4000x768, .f32⟩
  | .local _ .vmem, ⟨2, _⟩ => ⟨S768x64, .bf16⟩
  | .local _ .vmem, ⟨3, _⟩ => ⟨S4000x64, .f32⟩
  | .local _ .vmem, ⟨4, _⟩ => ⟨S4000x64, .f32⟩
  | .local _ .vmem, ⟨5, _⟩ => ⟨S10000x32, .f32⟩
  | .local _ .vmem, ⟨6, _⟩ => ⟨S10000x32, .f32⟩
  | .local _ .vmem, ⟨7, _⟩ => ⟨S32x16, .bf16⟩
  | .local _ .vmem, ⟨8, _⟩ => ⟨S10000x16, .f32⟩
  | .local _ .vmem, ⟨9, _⟩ => ⟨S10000x16, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S32x768_S32x768_S64x768_d0 : Shape.Concatenates [S32x768, S32x768] S64x768 0
  transposes_S64x768_S768x64_1_0 : S64x768.Transposes [1, 0] S768x64
  bitsLt_bf16_f32 : FTy.bits .bf16 < FTy.bits .f32
  inb_S4000x768_S4000x768_0_0 : ∀ a, (![0, 0] : Fin 2 → Nat) a + S4000x768.size a ≤ S4000x768.size a
  h_S4000x768 : 0 < S4000x768.numel
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S4000x64_S4000x64_0_0 : ∀ a, (![0, 0] : Fin 2 → Nat) a + S4000x64.size a ≤ S4000x64.size a
  h_S4000x64 : 0 < S4000x64.numel
  slices_S100000x64_S100000x32_0_0 : S100000x64.Slices ![0, 0] S100000x32
  slices_S100000x64_S100000x32_0_32 : S100000x64.Slices ![0, 32] S100000x32
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S8x32_S8x32_S16x32_d0 : Shape.Concatenates [S8x32, S8x32] S16x32 0
  transposes_S16x32_S32x16_1_0 : S16x32.Transposes [1, 0] S32x16
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S10000x16_S10000x16_0_0 : ∀ a, (![0, 0] : Fin 2 → Nat) a + S10000x16.size a ≤ S10000x16.size a
  h_S10000x16 : 0 < S10000x16.numel
  slices_S100000x16_S100000x8_0_0 : S100000x16.Slices ![0, 0] S100000x8
  slices_S100000x16_S100000x8_0_8 : S100000x16.Slices ![0, 8] S100000x8
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S4000x768_S768x64_S4000x64_1_0_0_1_n_n_wf : DotDims.WF S4000x768 S768x64 S4000x64 [1] [0] [0] [1] [] []
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x16_S10000x16_1_0_0_1_n_n_wf : DotDims.WF S10000x32 S32x16 S10000x16 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x768.size a ≤ S100000x768.size a
  hwx0_0 : ∀ i : grid0.Coords, EltTy.bits .f32 = 32 ∨ (Rect.block (s := S100000x768) S4000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .bf16 = 32 ∨ (Rect.block (s := S768x64) S768x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .bf16 = 32 ∨ (Rect.block (s := S32x16) S32x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def dot_S4000x768_S768x64_S4000x64_1_0_0_1_n_n : DotDims S4000x768 S768x64 S4000x64 where
  lhsContracting := [1]
  rhsContracting := [0]
  lhsNonContracting := [0]
  rhsNonContracting := [1]
  lhsBatch := []
  rhsBatch := []
  wf := dot_S4000x768_S768x64_S4000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf

abbrev win0_0 : Pipeline.Window sig grid0 :=
  Pipeline.Window.ofSpec (Memref.whole main_arg0) S4000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x768 : Shape := ⟨2, ![100000, 768]⟩
abbrev S3200000 : Shape := ⟨1, ![3200000]⟩
abbrev S32x768 : Shape := ⟨2, ![32, 768]⟩
abbrev S32 : Shape := ⟨1, ![32]⟩
abbrev S8x32 : Shape := ⟨2, ![8, 32]⟩
abbrev S8 : Shape := ⟨1, ![8]⟩
abbrev S768x32 : Shape := ⟨2, ![768, 32]⟩
abbrev S100000x32 : Shape := ⟨2, ![100000, 32]⟩
abbrev S_ : Shape := ⟨0, ![]⟩
abbrev S3200000x1 : Shape := ⟨2, ![3200000, 1]⟩
abbrev S3200000x32 : Shape := ⟨2, ![3200000, 32]⟩
abbrev S100000 : Shape := ⟨1, ![100000]⟩
abbrev S100000x1 : Shape := ⟨2, ![100000, 1]⟩
abbrev S1x32 : Shape := ⟨2, ![1, 32]⟩
abbrev S32x8 : Shape := ⟨2, ![32, 8]⟩
abbrev S100000x8 : Shape := ⟨2, ![100000, 8]⟩
abbrev S3200000x8 : Shape := ⟨2, ![3200000, 8]⟩
abbrev S1x8 : Shape := ⟨2, ![1, 8]⟩

abbrev nBuf : Space → Nat
  | .hbm => 78
  | .vmem => 0
  | .smem => 0
  | _ => 0

abbrev bufTy : (tb : Table) → Fin (tcTables nBuf tb) → BufTy
  | .hbm, ⟨0, _⟩ => ⟨S100000x768, .f32⟩
  | .hbm, ⟨1, _⟩ => ⟨S3200000, .i32⟩
  | .hbm, ⟨2, _⟩ => ⟨S3200000, .i32⟩
  | .hbm, ⟨3, _⟩ => ⟨S32x768, .f32⟩
  | .hbm, ⟨4, _⟩ => ⟨S32x768, .f32⟩
  | .hbm, ⟨5, _⟩ => ⟨S32, .f32⟩
  | .hbm, ⟨6, _⟩ => ⟨S8x32, .f32⟩
  | .hbm, ⟨7, _⟩ => ⟨S8x32, .f32⟩
  | .hbm, ⟨8, _⟩ => ⟨S8, .f32⟩
  | .hbm, ⟨9, _⟩ => ⟨S768x32, .f32⟩
  | .hbm, ⟨10, _⟩ => ⟨S100000x32, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x32, .f32⟩
  | .hbm, ⟨20, _⟩ => ⟨S_, .f32⟩
  | .hbm, ⟨21, _⟩ => ⟨S100000x32, .f32⟩
  | .hbm, ⟨22, _⟩ => ⟨S3200000x1, .i32⟩
  | .hbm, ⟨23, _⟩ => ⟨S100000x32, .f32⟩
  | .hbm, ⟨24, _⟩ => ⟨S_, .f32⟩
  | .hbm, ⟨25, _⟩ => ⟨S3200000, .f32⟩
  | .hbm, ⟨26, _⟩ => ⟨S_, .f32⟩
  | .hbm, ⟨27, _⟩ => ⟨S100000, .f32⟩
  | .hbm, ⟨28, _⟩ => ⟨S3200000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x32, .f32⟩
  | .hbm, ⟨35, _⟩ => ⟨S100000x32, .f32⟩
  | .hbm, ⟨36, _⟩ => ⟨S768x32, .f32⟩
  | .hbm, ⟨37, _⟩ => ⟨S100000x32, .f32⟩
  | .hbm, ⟨38, _⟩ => ⟨S100000x32, .f32⟩
  | .hbm, ⟨39, _⟩ => ⟨S1x32, .f32⟩
  | .hbm, ⟨40, _⟩ => ⟨S100000x32, .f32⟩
  | .hbm, ⟨41, _⟩ => ⟨S100000x32, .f32⟩
  | .hbm, ⟨42, _⟩ => ⟨S_, .f32⟩
  | .hbm, ⟨43, _⟩ => ⟨S100000x32, .f32⟩
  | .hbm, ⟨44, _⟩ => ⟨S100000x32, .f32⟩
  | .hbm, ⟨45, _⟩ => ⟨S32x8, .f32⟩
  | .hbm, ⟨46, _⟩ => ⟨S100000x8, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x8, .f32⟩
  | .hbm, ⟨56, _⟩ => ⟨S_, .f32⟩
  | .hbm, ⟨57, _⟩ => ⟨S100000x8, .f32⟩
  | .hbm, ⟨58, _⟩ => ⟨S3200000x1, .i32⟩
  | .hbm, ⟨59, _⟩ => ⟨S100000x8, .f32⟩
  | .hbm, ⟨60, _⟩ => ⟨S_, .f32⟩
  | .hbm, ⟨61, _⟩ => ⟨S3200000, .f32⟩
  | .hbm, ⟨62, _⟩ => ⟨S_, .f32⟩
  | .hbm, ⟨63, _⟩ => ⟨S100000, .f32⟩
  | .hbm, ⟨64, _⟩ => ⟨S3200000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x8, .f32⟩
  | .hbm, ⟨71, _⟩ => ⟨S100000x8, .f32⟩
  | .hbm, ⟨72, _⟩ => ⟨S32x8, .f32⟩
  | .hbm, ⟨73, _⟩ => ⟨S100000x8, .f32⟩
  | .hbm, ⟨74, _⟩ => ⟨S100000x8, .f32⟩
  | .hbm, ⟨75, _⟩ => ⟨S1x8, .f32⟩
  | .hbm, ⟨76, _⟩ => ⟨S100000x8, .f32⟩
  | .hbm, ⟨77, _⟩ => ⟨S100000x8, .f32⟩
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  transposes_S32x768_S768x32_1_0 : S32x768.Transposes [1, 0] S768x32
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S8x32_S32x8_1_0 : S8x32.Transposes [1, 0] S32x8
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x768_S768x32_S100000x32_1_0_0_1_n_n_wf : DotDims.WF S100000x768 S768x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000_S3200000x1_S3200000_n_0_0_1_wf : ScatterDims.WF S100000 S3200000x1 S3200000 [] [0] [0] 1
  dot_S100000x32_S32x8_S100000x8_1_0_0_1_n_n_wf : DotDims.WF S100000x32 S32x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1

variable [Facts₀]

def dot_S100000x768_S768x32_S100000x32_1_0_0_1_n_n : DotDims S100000x768 S768x32 S100000x32 where
  lhsContracting := [1]
  rhsContracting := [0]
  lhsNonContracting := [0]
  rhsNonContracting := [1]
  lhsBatch := []
  rhsBatch := []
  wf := dot_S100000x768_S768x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf

class Facts : Prop extends Facts₀ where

variable [Facts]
-- ==== Proof.Region0.lean ====
/-
  Region 0 of the kernel program at the ideal values: the pallas_call's output array after the run.

  The grid has 25 points. At point t the body loads the [4000, 768] row block t of the left operand and the whole
  [768, 64] right operand (its block index is (0, 0) at every point), and stores into the [4000, 64] row block t of the
  output the product of the two: at the ideal values a change of float format is the identity and a matmul into a
  zero accumulator is the plain sum over the contracted axis, so the block's entry (r, j) is
  sum_k left[t * 4000 + r, k] * right[k, j].  That is the restriction to the block of ONE function of the two
  arrays, `prod`: entry (i, j) of the product of the [100000, 768] array and the [768, 64] array.  The 25 row
  blocks tile the output (row i lies in block i / 4000), so the array ends holding `prod` of the two arrays as the region
  finds them, whatever those are: the statement is for any entry contents `V`.
-/
import proofs.«154534_j5523327943254_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

/-! ## The product of the two whole arrays, index by index -/

/-- Row `i 0` of the left array at column `k`. -/
abbrev lidx (i : S100000x64.Idx) (k : Fin 768) : S100000x768.Idx := fun a => match a with
  | ⟨0, _⟩ => ⟨(i 0).val, (i 0).isLt⟩
  | ⟨1, _⟩ => ⟨k.val, k.isLt⟩
/-- Row `k` of the right array at column `i 1`. -/
abbrev ridx (i : S100000x64.Idx) (k : Fin 768) : S768x64.Idx := fun a => match a with
  | ⟨0, _⟩ => ⟨k.val, k.isLt⟩
  | ⟨1, _⟩ => ⟨(i 1).val, (i 1).isLt⟩

/-- Entry (i, j) of the matrix product: the sum over the 768 contracted positions. -/
def prod (x : S100000x768.Idx → EReal) (w : S768x64.Idx → EReal) : S100000x64.Idx → EReal :=
  fun i => ∑ k : Fin 768, x (lidx i k) * w (ridx i k)

/-! ## The body's payload at an index of the block -/

/-- The same two index maps inside a block. -/
abbrev blidx (j : S4000x64.Idx) (k : Fin 768) : S4000x768.Idx := fun a => match a with
  | ⟨0, _⟩ => ⟨(j 0).val, (j 0).isLt⟩
  | ⟨1, _⟩ => ⟨k.val, k.isLt⟩
abbrev bridx (j : S4000x64.Idx) (k : Fin 768) : S768x64.Idx := fun a => match a with
  | ⟨0, _⟩ => ⟨k.val, k.isLt⟩
  | ⟨1, _⟩ => ⟨(j 1).val, (j 1).isLt⟩

/-- The matmul's operand indices, axis by axis: the left operand is read at (row of the output, contracted position),
    the right at (contracted position, column of the output). -/
theorem lhs_0 (i : S4000x64.Idx) (q : dot_S4000x768_S768x64_S4000x64_1_0_0_1_n_n.contr.Idx) :
    (dot_S4000x768_S768x64_S4000x64_1_0_0_1_n_n.lhsIdx i q 0).val = (i 0).val := by
  unfold DotDims.lhsIdx
  rw [dif_neg (show ¬(0 : Fin S4000x768.rank) ∈ dot_S4000x768_S768x64_S4000x64_1_0_0_1_n_n.lhsBatch by decide), dif_pos (show (0 : Fin S4000x768.rank) ∈ dot_S4000x768_S768x64_S4000x64_1_0_0_1_n_n.lhsNonContracting by decide)]
  rfl
theorem lhs_1 (i : S4000x64.Idx) (q : dot_S4000x768_S768x64_S4000x64_1_0_0_1_n_n.contr.Idx) :
    (dot_S4000x768_S768x64_S4000x64_1_0_0_1_n_n.lhsIdx i q 1).val = (q ⟨0, by decide⟩).val :=
  dot_S4000x768_S768x64_S4000x64_1_0_0_1_n_n.lhsIdx_val_of_single rfl i q
theorem rhs_0 (i : S4000x64.Idx) (q : dot_S4000x768_S768x64_S4000x64_1_0_0_1_n_n.contr.Idx) :
    (dot_S4000x768_S768x64_S4000x64_1_0_0_1_n_n.rhsIdx i q 0).val = (q ⟨0, by decide⟩).val :=
  dot_S4000x768_S768x64_S4000x64_1_0_0_1_n_n.rhsIdx_val_of_single rfl i q
theorem rhs_1 (i : S4000x64.Idx) (q : dot_S4000x768_S768x64_S4000x64_1_0_0_1_n_n.contr.Idx) :
    (dot_S4000x768_S768x64_S4000x64_1_0_0_1_n_n.rhsIdx i q 1).val = (i 1).val := by
  unfold DotDims.rhsIdx
  rw [dif_neg (show ¬(1 : Fin S768x64.rank) ∈ dot_S4000x768_S768x64_S4000x64_1_0_0_1_n_n.rhsBatch by decide), dif_pos (show (1 : Fin S768x64.rank) ∈ dot_S4000x768_S768x64_S4000x64_1_0_0_1_n_n.rhsNonContracting by decide)]
  rfl

/-- What the body stores, at an index of the block: the sum over the contracted axis of the products of the loaded
    left block's row and the loaded right operand's column (the narrowing to bf16 and the shape casts to the same shape
    change nothing at the ideal values; the accumulator is the zero splat). -/
theorem pay_apply (x0 : Vec Ideal S4000x768 .f32) (x1 : Vec Ideal S768x64 .bf16) (j : S4000x64.Idx) :
    k0_pay1 x0 x1 j = ∑ k : Fin 768, x0 (blidx j k) * x1 (bridx j k) := by
  unfold k0_pay1
  simp only [matmul, Idealize.ShloMosaic.shapeCast_self]
  rw [Ideal.matmul_constant_zero_apply, ← Equiv.sum_comp (ValueIdx.contrEquiv1 dot_S4000x768_S768x64_S4000x64_1_0_0_1_n_n 768 rfl rfl).symm]
  refine Finset.sum_congr rfl fun k _ => ?_
  have hk := ValueIdx.contrEquiv1_symm_val dot_S4000x768_S768x64_S4000x64_1_0_0_1_n_n 768 rfl rfl k
  have el : dot_S4000x768_S768x64_S4000x64_1_0_0_1_n_n.lhsIdx j ((ValueIdx.contrEquiv1 dot_S4000x768_S768x64_S4000x64_1_0_0_1_n_n 768 rfl rfl).symm k) = blidx j k := funext fun a => Fin.ext (by
    match a with
    | ⟨0, _⟩ => exact lhs_0 _ _
    | ⟨1, _⟩ => exact (lhs_1 _ _).trans hk)
  have er : dot_S4000x768_S768x64_S4000x64_1_0_0_1_n_n.rhsIdx j ((ValueIdx.contrEquiv1 dot_S4000x768_S768x64_S4000x64_1_0_0_1_n_n 768 rfl rfl).symm k) = bridx j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

/-- The left and the right array as the region finds them, at their literal types. -/
abbrev xarr (c : Dev nD) : S100000x768.Idx → EReal := V c main_arg0
abbrev warr (c : Dev nD) : S768x64.Idx → EReal := V c main_v2

theorem hz : (![0, 0] : Fin 2 → Nat) = fun _ => 0 := funext fun a => by fin_cases a <;> rfl

/-- The printed index maps over the grid: the left operand's and the output's row block is the point's number, every
    other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the two arrays as the region finds them. -/
theorem flushed_eq (c : Dev nD) (t : Fin cfg0.N) :
    (dat0 V c).flushed 2 t = ((cfg0.win 2).blk t).view.read (Elt Ideal) (prod (xarr V c) (warr V c)) := by
  show (cfg0.win 2).cut (grid0.coords t) ((dat0 V c).after 2 t) = _
  rw [after0_2]
  unfold out0_2
  rw [View.canon_unit_zero hz]
  simp only [View.ld_unit_zero (S := S4000x768) hz, View.ld_unit_zero (S := S768x64) hz]
  obtain ⟨e0, e1, e2, e3, e4, e5⟩ := idx_facts t
  funext j
  show k0_pay1 (iblk0 V c 0 t) (iblk0 V c 1 t) j = prod (xarr V c) (warr V c) (((cfg0.win 2).blk t).view.emb j)
  refine (pay_apply (iblk0 V c 0 t) (iblk0 V c 1 t) j).trans ?_
  refine Finset.sum_congr rfl fun k _ => ?_
  show xarr V c (((cfg0.win 0).blk t).view.emb (blidx j k)) * warr V c (((cfg0.win 1).blk t).view.emb (bridx j k))
    = xarr V c (lidx (((cfg0.win 2).blk t).view.emb j) k) * warr V c (ridx (((cfg0.win 2).blk t).view.emb j) k)
  have h0 : ((cfg0.win 0).blk t).view.emb (blidx j k) = lidx (((cfg0.win 2).blk t).view.emb j) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 768 + 1 * k.val = k.val; omega
  have h1 : ((cfg0.win 1).blk t).view.emb (bridx j k) = ridx (((cfg0.win 2).blk t).view.emb j) k := by
    funext a; apply Fin.ext
    match a with
    | ⟨0, _⟩ => show win0_1.index t (0 : Fin 2) * 768 + 1 * k.val = k.val; omega
    | ⟨1, _⟩ => show win0_1.index t (1 : Fin 2) * 64 + 1 * (j 1).val = win0_2.index t (1 : Fin 2) * 64 + 1 * (j 1).val; omega
  rw [h0, h1]

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v3).slice (win0_2.rect t)).set ↔ _
  rw [View.set_slice_whole, Rect.mem_set_unit]
  exact Iff.rfl

/-- The row blocks tile the array: row `i 0` lies in the block of point `i 0 / 4000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 4000, by rw [show cfg0.N = 25 from N_0]; omega⟩
  obtain ⟨e0, e1, e2, e3, e4, e5⟩ := idx_facts t
  have ht : t.val = (i 0).val / 4000 := rfl
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- THE ARRAY after the region: the product of the left and the right array as the region finds them. -/
theorem arr (c : Dev nD) : (dat0 V c).arrAt 2 cfg0.N = prod (xarr V c) (warr V c) :=
  (dat0 V c).arrAt_eq_of_cover 2 _ (fun t _ => flushed_eq V c t) (cover)

end Cert.KernelIdeal.Region0

end
-- ==== Proof.Region1.lean ====
/-
  Region 1 of the kernel program at the ideal values: the pallas_call's output array after the run.

  The grid has 10 points. At point t the body loads the [10000, 32] row block t of the left operand and the whole
  [32, 16] right operand (its block index is (0, 0) at every point), and stores into the [10000, 16] row block t of the
  output the product of the two: at the ideal values a change of float format is the identity and a matmul into a
  zero accumulator is the plain sum over the contracted axis, so the block's entry (r, j) is
  sum_k left[t * 10000 + r, k] * right[k, j].  That is the restriction to the block of ONE function of the two
  arrays, `prod`: entry (i, j) of the product of the [100000, 32] array and the [32, 16] array.  The 10 row
  blocks tile the output (row i lies in block i / 10000), so the array ends holding `prod` of the two arrays as the region
  finds them, whatever those are: the statement is for any entry contents `V`.
-/
import proofs.«154534_j5523327943254_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)

/-! ## The product of the two whole arrays, index by index -/

/-- Row `i 0` of the left array at column `k`. -/
abbrev lidx (i : S100000x16.Idx) (k : Fin 32) : S100000x32.Idx := fun a => match a with
  | ⟨0, _⟩ => ⟨(i 0).val, (i 0).isLt⟩
  | ⟨1, _⟩ => ⟨k.val, k.isLt⟩
/-- Row `k` of the right array at column `i 1`. -/
abbrev ridx (i : S100000x16.Idx) (k : Fin 32) : S32x16.Idx := fun a => match a with
  | ⟨0, _⟩ => ⟨k.val, k.isLt⟩
  | ⟨1, _⟩ => ⟨(i 1).val, (i 1).isLt⟩

/-- Entry (i, j) of the matrix product: the sum over the 32 contracted positions. -/
def prod (x : S100000x32.Idx → EReal) (w : S32x16.Idx → EReal) : S100000x16.Idx → EReal :=
  fun i => ∑ k : Fin 32, x (lidx i k) * w (ridx i k)

/-! ## The body's payload at an index of the block -/

/-- The same two index maps inside a block. -/
abbrev blidx (j : S10000x16.Idx) (k : Fin 32) : S10000x32.Idx := fun a => match a with
  | ⟨0, _⟩ => ⟨(j 0).val, (j 0).isLt⟩
  | ⟨1, _⟩ => ⟨k.val, k.isLt⟩
abbrev bridx (j : S10000x16.Idx) (k : Fin 32) : S32x16.Idx := fun a => match a with
  | ⟨0, _⟩ => ⟨k.val, k.isLt⟩
  | ⟨1, _⟩ => ⟨(j 1).val, (j 1).isLt⟩

/-- The matmul's operand indices, axis by axis: the left operand is read at (row of the output, contracted position),
    the right at (contracted position, column of the output). -/
theorem lhs_0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem lhs_1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
theorem rhs_0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
theorem rhs_1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- What the body stores, at an index of the block: the sum over the contracted axis of the products of the loaded
    left block's row and the loaded right operand's column (the narrowing to bf16 and the shape casts to the same shape
    change nothing at the ideal values; the accumulator is the zero splat). -/
theorem pay_apply (x0 : Vec Ideal S10000x32 .f32) (x1 : Vec Ideal S32x16 .bf16) (j : S10000x16.Idx) :
    k1_pay1 x0 x1 j = ∑ k : Fin 32, x0 (blidx j k) * x1 (bridx j k) := by
  unfold k1_pay1
  simp only [matmul, Idealize.ShloMosaic.shapeCast_self]
  rw [Ideal.matmul_constant_zero_apply, ← Equiv.sum_comp (ValueIdx.contrEquiv1 dot_S10000x32_S32x16_S10000x16_1_0_0_1_n_n 32 rfl rfl).symm]
  refine Finset.sum_congr rfl fun k _ => ?_
  have hk := ValueIdx.contrEquiv1_symm_val dot_S10000x32_S32x16_S10000x16_1_0_0_1_n_n 32 rfl rfl k
  have el : dot_S10000x32_S32x16_S10000x16_1_0_0_1_n_n.lhsIdx j ((ValueIdx.contrEquiv1 dot_S10000x32_S32x16_S10000x16_1_0_0_1_n_n 32 rfl rfl).symm k) = blidx j k := funext fun a => Fin.ext (by
    match a with
    | ⟨0, _⟩ => exact lhs_0 _ _
    | ⟨1, _⟩ => exact (lhs_1 _ _).trans hk)
  have er : dot_S10000x32_S32x16_S10000x16_1_0_0_1_n_n.rhsIdx j ((ValueIdx.contrEquiv1 dot_S10000x32_S32x16_S10000x16_1_0_0_1_n_n 32 rfl rfl).symm k) = bridx j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

/-- The left and the right array as the region finds them, at their literal types. -/
abbrev xarr (c : Dev nD) : S100000x32.Idx → EReal := V c main_v31
abbrev warr (c : Dev nD) : S32x16.Idx → EReal := V c main_v34

theorem hz : (![0, 0] : Fin 2 → Nat) = fun _ => 0 := funext fun a => by fin_cases a <;> rfl

/-- The printed index maps over the grid: the left operand's and the output's row block is the point's number, every
    other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the product of the two arrays as the region finds them. -/
theorem flushed_eq (c : Dev nD) (t : Fin cfg1.N) :
    (dat1 V c).flushed 2 t = ((cfg1.win 2).blk t).view.read (Elt Ideal) (prod (xarr V c) (warr V c)) := by
  show (cfg1.win 2).cut (grid1.coords t) ((dat1 V c).after 2 t) = _
  rw [after1_2]
  unfold out1_2
  rw [View.canon_unit_zero hz]
  simp only [View.ld_unit_zero (S := S10000x32) hz, View.ld_unit_zero (S := S32x16) hz]
  obtain ⟨e0, e1, e2, e3, e4, e5⟩ := idx_facts t
  funext j
  show k1_pay1 (iblk1 V c 0 t) (iblk1 V c 1 t) j = prod (xarr V c) (warr V c) (((cfg1.win 2).blk t).view.emb j)
  refine (pay_apply (iblk1 V c 0 t) (iblk1 V c 1 t) j).trans ?_
  refine Finset.sum_congr rfl fun k _ => ?_
  show xarr V c (((cfg1.win 0).blk t).view.emb (blidx j k)) * warr V c (((cfg1.win 1).blk t).view.emb (bridx j k))
    = xarr V c (lidx (((cfg1.win 2).blk t).view.emb j) k) * warr V c (ridx (((cfg1.win 2).blk t).view.emb j) k)
  have h0 : ((cfg1.win 0).blk t).view.emb (blidx j k) = lidx (((cfg1.win 2).blk t).view.emb j) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 32 + 1 * k.val = k.val; omega
  have h1 : ((cfg1.win 1).blk t).view.emb (bridx j k) = ridx (((cfg1.win 2).blk t).view.emb j) k := by
    funext a; apply Fin.ext
    match a with
    | ⟨0, _⟩ => show win1_1.index t (0 : Fin 2) * 32 + 1 * k.val = k.val; omega
    | ⟨1, _⟩ => show win1_1.index t (1 : Fin 2) * 16 + 1 * (j 1).val = win1_2.index t (1 : Fin 2) * 16 + 1 * (j 1).val; omega
  rw [h0, h1]

/-- An index of the array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v35).slice (win1_2.rect t)).set ↔ _
  rw [View.set_slice_whole, Rect.mem_set_unit]
  exact Iff.rfl

/-- The row blocks tile the array: row `i 0` lies in the block of point `i 0 / 10000`. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  let t : Fin cfg1.N := ⟨(i 0).val / 10000, by rw [show cfg1.N = 10 from N_1]; omega⟩
  obtain ⟨e0, e1, e2, e3, e4, e5⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- THE ARRAY after the region: the product of the left and the right array as the region finds them. -/
theorem arr (c : Dev nD) : (dat1 V c).arrAt 2 cfg1.N = prod (xarr V c) (warr V c) :=
  (dat1 V c).arrAt_eq_of_cover 2 _ (fun t _ => flushed_eq V c t) (cover)

end Cert.KernelIdeal.Region1

end
-- ==== Proof.KernelValue.lean ====
/-
  The kernel program's result as ONE term of the argument arrays, at the ideal values.

  @main is: three host operations (the two layer-1 weights stacked, transposed, narrowed), the first pallas_call, the
  host stretch of layer 1 (in-degrees by a scatter-add of ones, their clamped reciprocal as a column; the neighbour
  projection gathered along the source indices and scatter-added along the destination indices; the mean, the self
  projection, the bias, the maximum with 0), the stacked layer-2 weights, the second pallas_call, and the same stretch for
  layer 2 without the maximum, which reuses the column of reciprocals.  The generated run names the buffers' contents at
  each boundary as a fold (`W1` … `W7`); here each fold is opened once: a host stretch to the composition of its
  operations over the contents before it, a region's output array to the product of its two input arrays
  (Region0 / Region1), every other buffer across a region to what it held.
-/
import proofs.«154534_j5523327943254_1_alg».proof.Proof.Gen.KernelIdeal.Frame
import proofs.«154534_j5523327943254_1_alg».proof.Proof.Region0
import proofs.«154534_j5523327943254_1_alg».proof.Proof.Region1
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo

/-! ## The host stretches as functions -/

section Terms
variable {F : FTy → Type} [FloatOps F]

/-- Two [32, 768] weights stacked to [64, 768], transposed to [768, 64], narrowed to bf16: column j is row j of the
    first weight for j < 32 and row j - 32 of the second from there on. -/
def stackT1 (a b : (⟨S32x768, .f32⟩ : BufTy).Contents (Elt F)) : (⟨S768x64, .bf16⟩ : BufTy).Contents (Elt F) :=
  truncf .bf16 (transpose S768x64 [1, 0] (concatenate S64x768 0 [⟨S32x768, a⟩, ⟨S32x768, b⟩] concatenates_S32x768_S32x768_S64x768_d0) transposes_S64x768_S768x64_1_0) bitsLt_bf16_f32

/-- The same for the two [8, 32] weights of layer 2: [32, 16]. -/
def stackT2 (a b : (⟨S8x32, .f32⟩ : BufTy).Contents (Elt F)) : (⟨S32x16, .bf16⟩ : BufTy).Contents (Elt F) :=
  truncf .bf16 (transpose S32x16 [1, 0] (concatenate S16x32 0 [⟨S8x32, a⟩, ⟨S8x32, b⟩] concatenates_S8x32_S8x32_S16x32_d0) transposes_S16x32_S32x16_1_0) bitsLt_bf16_f32

/-- The destination indices as a column of scatter indices. -/
def dstCol (dst : (⟨S3200000, .i32⟩ : BufTy).Contents (Elt F)) : (⟨S3200000x1, .i32⟩ : BufTy).Contents (Elt F) :=
  broadcastInDim S3200000x1 ![0] bcast_S3200000_S3200000x1_0 dst

/-- The source indices as a column of gather indices, a negative index wrapped once by the number of nodes. -/
def srcCol (src : (⟨S3200000, .i32⟩ : BufTy).Contents (Elt F)) : (⟨S3200000x1, .i32⟩ : BufTy).Contents (Elt F) :=
  broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)

/-- The in-degree of every node (ones scatter-added along the destination indices) clamped below by 1. -/
def clampedDeg (dst : (⟨S3200000, .i32⟩ : BufTy).Contents (Elt F)) : (⟨S100000, .f32⟩ : BufTy).Contents (Elt F) :=
  maximumf (Host.scatterAdd scatter_S100000_S3200000x1_S3200000_n_0_0_1 (broadcastInDim S100000 ![] bcast_S_S100000 (constant S_ .f32 0x00000000#32)) (dstCol dst) (broadcastInDim S3200000 ![] bcast_S_S3200000 (constant S_ .f32 0x3F800000#32))) (broadcastInDim S100000 ![] bcast_S_S100000 (constant S_ .f32 0x3F800000#32))

/-- Its reciprocal, as a column. -/
def invCol (dst : (⟨S3200000, .i32⟩ : BufTy).Contents (Elt F)) : (⟨S100000x1, .f32⟩ : BufTy).Contents (Elt F) :=
  broadcastInDim S100000x1 ![0] bcast_S100000_S100000x1_0 (Host.divf (broadcastInDim S100000 ![] bcast_S_S100000 (constant S_ .f32 0x3F800000#32)) (clampedDeg dst))

/-- The neighbour sum of a [100000, 32] table: its rows gathered along the sources, scatter-added along the destinations. -/
def agg32 (h : (⟨S100000x32, .f32⟩ : BufTy).Contents (Elt F)) (src dst : (⟨S3200000, .i32⟩ : BufTy).Contents (Elt F)) : (⟨S100000x32, .f32⟩ : BufTy).Contents (Elt F) :=
  Host.scatterAdd scatter_S100000x32_S3200000x1_S3200000x32_1_0_0_1 (broadcastInDim S100000x32 ![] bcast_S_S100000x32 (constant S_ .f32 0x00000000#32)) (dstCol dst) (Host.gather gather_S100000x32_S3200000x1_S3200000x32_1_0_n_n_0_1_132 h (srcCol src))

/-- The same for a [100000, 8] table. -/
def agg8 (h : (⟨S100000x8, .f32⟩ : BufTy).Contents (Elt F)) (src dst : (⟨S3200000, .i32⟩ : BufTy).Contents (Elt F)) : (⟨S100000x8, .f32⟩ : BufTy).Contents (Elt F) :=
  Host.scatterAdd scatter_S100000x8_S3200000x1_S3200000x8_1_0_0_1 (broadcastInDim S100000x8 ![] bcast_S_S100000x8 (constant S_ .f32 0x00000000#32)) (dstCol dst) (Host.gather gather_S100000x8_S3200000x1_S3200000x8_1_0_n_n_0_1_18 h (srcCol src))

/-- Layer 1 after the first pallas_call, from its [100000, 64] output `p` (columns 0..31 the self projection, 32..63 the
    neighbour projection): self + (neighbour sum) * (1 / clamped degree) + bias, then the maximum with 0. -/
def hidden (p : (⟨S100000x64, .f32⟩ : BufTy).Contents (Elt F)) (src dst : (⟨S3200000, .i32⟩ : BufTy).Contents (Elt F)) (b1 : (⟨S32, .f32⟩ : BufTy).Contents (Elt F)) : (⟨S100000x32, .f32⟩ : BufTy).Contents (Elt F) :=
  maximumf (addf (addf (extractStridedSlice S100000x32 ![0, 0] p slices_S100000x64_S100000x32_0_0) (mulf (agg32 (extractStridedSlice S100000x32 ![0, 32] p slices_S100000x64_S100000x32_0_32) src dst) (broadcastInDim S100000x32 ![0, 1] bcast_S100000x1_S100000x32_0_1 (invCol dst)))) (broadcastInDim S100000x32 ![0, 1] bcast_S1x32_S100000x32_0_1 (broadcastInDim S1x32 ![1] bcast_S32_S1x32_1 b1))) (broadcastInDim S100000x32 ![] bcast_S_S100000x32 (constant S_ .f32 0x00000000#32))

/-- Layer 2 after the second pallas_call, from its [100000, 16] output `p` and the column of reciprocals `invc`. -/
def outOf (p : (⟨S100000x16, .f32⟩ : BufTy).Contents (Elt F)) (invc : (⟨S100000x1, .f32⟩ : BufTy).Contents (Elt F)) (src dst : (⟨S3200000, .i32⟩ : BufTy).Contents (Elt F)) (b2 : (⟨S8, .f32⟩ : BufTy).Contents (Elt F)) : (⟨S100000x8, .f32⟩ : BufTy).Contents (Elt F) :=
  addf (addf (extractStridedSlice S100000x8 ![0, 0] p slices_S100000x16_S100000x8_0_0) (mulf (agg8 (extractStridedSlice S100000x8 ![0, 8] p slices_S100000x16_S100000x8_0_8) src dst) (broadcastInDim S100000x8 ![0, 1] bcast_S100000x1_S100000x8_0_1 invc))) (broadcastInDim S100000x8 ![0, 1] bcast_S1x8_S100000x8_0_1 (broadcastInDim S1x8 ![1] bcast_S8_S1x8_1 b2))

end Terms

/-! ## The folds, opened -/

variable (m : (ℓ : Loc nD τ sig) → Buf (Elt Ideal) ℓ) (ρ : Dev nD → PrngReg)

/-- The arguments the first region and the first stretches read, at the first region's entry and exit: as launched. -/
theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl

/-- The stacked layer-1 weight at the first region's entry. -/
theorem W1_v2 (c : Dev nD) : W1 m ρ c (Proc.devRef .tc main_v2)
    = stackT1 (m ((c : Thread nD τ).loc main_arg3)) (m ((c : Thread nD τ).loc main_arg4)) := by
  show StableHlo.after hostOps0 (W0 m ρ c) (Proc.devRef .tc main_v2) = _
  after_results
  rfl

/-- The first region's output at its exit: the product of the features and the stacked weight. -/
theorem W2_v3 (c : Dev nD) : W2 m ρ c (Proc.devRef .tc main_v3)
    = Region0.prod (m ((c : Thread nD τ).loc main_arg0)) (stackT1 (m ((c : Thread nD τ).loc main_arg3)) (m ((c : Thread nD τ).loc main_arg4))) := by
  refine (W2_arr m ρ c 2).trans ?_
  rw [Region0.arr (V1 m ρ) c]
  show Region0.prod (W1 m ρ c (Proc.devRef .tc main_arg0)) (W1 m ρ c (Proc.devRef .tc main_v2)) = _
  rw [W1_arg0, W1_v2]

/-- Argument 1 is not written by the first stretch nor by the first region. -/
theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results <;> rfl
/-- Argument 2 is not written by the first stretch nor by the first region. -/
theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results <;> rfl
/-- Argument 5 is not written by the first stretch nor by the first region. -/
theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results <;> rfl
/-- Argument 6 is not written by the first stretch nor by the first region. -/
theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results <;> rfl
/-- Argument 7 is not written by the first stretch nor by the first region. -/
theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results <;> rfl
/-- Argument 8 is not written by the first stretch nor by the first region. -/
theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results <;> rfl

/-- The second region's left operand at its entry: layer 1's result. -/
theorem W5_v31 (c : Dev nD) : W5 m ρ c (Proc.devRef .tc main_v31)
    = hidden (W2 m ρ c (Proc.devRef .tc main_v3)) (W2 m ρ c (Proc.devRef .tc main_arg1)) (W2 m ρ c (Proc.devRef .tc main_arg2)) (W2 m ρ c (Proc.devRef .tc main_arg5)) := by
  show StableHlo.after hostOps1_2 (StableHlo.after hostOps1_1 (StableHlo.after hostOps1 (W2 m ρ c))) (Proc.devRef .tc main_v31) = _
  after_results_simp <;> rfl

/-- Its right operand: the stacked layer-2 weight. -/
theorem W5_v34 (c : Dev nD) : W5 m ρ c (Proc.devRef .tc main_v34)
    = stackT2 (W2 m ρ c (Proc.devRef .tc main_arg6)) (W2 m ρ c (Proc.devRef .tc main_arg7)) := by
  show StableHlo.after hostOps1_2 (StableHlo.after hostOps1_1 (StableHlo.after hostOps1 (W2 m ρ c))) (Proc.devRef .tc main_v34) = _
  after_results_simp <;> rfl

/-- The column of reciprocals of the clamped in-degrees, computed once before the second region. -/
theorem W5_v14 (c : Dev nD) : W5 m ρ c (Proc.devRef .tc main_v14) = invCol (W2 m ρ c (Proc.devRef .tc main_arg2)) := by
  show StableHlo.after hostOps1_2 (StableHlo.after hostOps1_1 (StableHlo.after hostOps1 (W2 m ρ c))) (Proc.devRef .tc main_v14) = _
  after_results_simp <;> rfl

/-- Argument 1 is not written between the regions. -/
theorem W5_arg1 (c : Dev nD) : W5 m ρ c (Proc.devRef .tc main_arg1) = W2 m ρ c (Proc.devRef .tc main_arg1) := by
  show StableHlo.after hostOps1_2 (StableHlo.after hostOps1_1 (StableHlo.after hostOps1 (W2 m ρ c))) (Proc.devRef .tc main_arg1) = _
  after_results_simp <;> rfl
/-- Argument 2 is not written between the regions. -/
theorem W5_arg2 (c : Dev nD) : W5 m ρ c (Proc.devRef .tc main_arg2) = W2 m ρ c (Proc.devRef .tc main_arg2) := by
  show StableHlo.after hostOps1_2 (StableHlo.after hostOps1_1 (StableHlo.after hostOps1 (W2 m ρ c))) (Proc.devRef .tc main_arg2) = _
  after_results_simp <;> rfl
/-- Argument 8 is not written between the regions. -/
theorem W5_arg8 (c : Dev nD) : W5 m ρ c (Proc.devRef .tc main_arg8) = W2 m ρ c (Proc.devRef .tc main_arg8) := by
  show StableHlo.after hostOps1_2 (StableHlo.after hostOps1_1 (StableHlo.after hostOps1 (W2 m ρ c))) (Proc.devRef .tc main_arg8) = _
  after_results_simp <;> rfl

/-- The second region's output at its exit: the product of layer 1's result and the stacked layer-2 weight. -/
theorem W6_v35 (c : Dev nD) : W6 m ρ c (Proc.devRef .tc main_v35)
    = Region1.prod (W5 m ρ c (Proc.devRef .tc main_v31)) (W5 m ρ c (Proc.devRef .tc main_v34)) := by
  refine (W6_arr m ρ c 2).trans ?_
  rw [Region1.arr (V5 m ρ) c]

/-- The result at the last boundary, over the contents at the second region's exit. -/
theorem W7_v53 (c : Dev nD) : W7 m ρ c (Proc.devRef .tc main_v53)
    = outOf (W6 m ρ c (Proc.devRef .tc main_v35)) (W6 m ρ c (Proc.devRef .tc main_v14)) (W6 m ρ c (Proc.devRef .tc main_arg1)) (W6 m ρ c (Proc.devRef .tc main_arg2)) (W6 m ρ c (Proc.devRef .tc main_arg8)) := by
  show StableHlo.after hostOps2 (W6 m ρ c) (Proc.devRef .tc main_v53) = _
  after_results_simp <;> rfl

/-- THE KERNEL PROGRAM'S RESULT as one term of the argument arrays. -/
def term (x0 : (⟨S100000x768, .f32⟩ : BufTy).Contents (Elt Ideal)) (src dst : (⟨S3200000, .i32⟩ : BufTy).Contents (Elt Ideal))
    (a3 a4 : (⟨S32x768, .f32⟩ : BufTy).Contents (Elt Ideal)) (b1 : (⟨S32, .f32⟩ : BufTy).Contents (Elt Ideal))
    (a6 a7 : (⟨S8x32, .f32⟩ : BufTy).Contents (Elt Ideal)) (b2 : (⟨S8, .f32⟩ : BufTy).Contents (Elt Ideal)) : (⟨S100000x8, .f32⟩ : BufTy).Contents (Elt Ideal) :=
  outOf (Region1.prod (hidden (Region0.prod x0 (stackT1 a3 a4)) src dst b1) (stackT2 a6 a7)) (invCol dst) src dst b2

/-- The last boundary's contents at the result's reference are that term of the launch contents of the arguments. -/
theorem result (c : Dev nD) : W7 m ρ c (Proc.devRef .tc main_v53)
    = term (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [W7_v53, W6_v35, W6_of_ne m ρ c main_v14 (by decide), W6_of_ne m ρ c main_arg1 (by decide), W6_of_ne m ρ c main_arg2 (by decide),
    W6_of_ne m ρ c main_arg8 (by decide), W5_v31, W5_v34, W5_v14, W5_arg1, W5_arg2, W5_arg8, W2_v3, W2_arg1, W2_arg2, W2_arg5, W2_arg6,
    W2_arg7, W2_arg8]
  rfl

end Cert.KernelIdeal.Val

end
-- ==== Proof.MeanLaw.lean ====
/-
  The one algebraic law that joins the two programs: a neighbour sum is turned into a mean by a division by the clamped
  in-degree d = max(deg, 1).  One program multiplies the sum by the reciprocal 1 / d computed once, the other divides the
  sum by d.  On the extended reals the quotient by a divisor other than zero is the product with the divisor's inverse,
  and the quotient of 1 by it is that inverse, so the two agree for every value of the sum (the infinities too) as soon
  as d is not zero; and d is at least 1 whatever the degree is, because it is a maximum with 1.
-/
import Idealize.ShloMosaic.PureOps.Ideal

noncomputable section

namespace Cert.MeanLaw

open Idealize.ShloMosaic

/-- The f32 word of `1.0` denotes the real `1`. -/
theorem ofBits_one_f32 : Ideal.ofBits .f32 0x3F800000#32 = 1 := by
  simp [Ideal.ofBits, Ideal.ieee, -EReal.coe_mul]; norm_num

/-- A maximum with `1` is not zero. -/
theorem max_one_ne_zero (x : EReal) : max x 1 ≠ 0 :=
  ne_of_gt (lt_of_lt_of_le zero_lt_one (le_max_right x 1))

/-- Multiplying by the reciprocal of a divisor other than zero is dividing by it, for every numerator. -/
theorem mul_one_div (a d : EReal) (hd : d ≠ 0) : a * Ideal.div 1 d = Ideal.div a d := by
  unfold Ideal.div
  rw [if_neg hd, if_neg hd, one_mul]

/-- The form the two programs meet: the sum times `1 / max(deg, 1)` is the sum over `max(deg, 1)`. -/
theorem mul_inv_clamped (a deg : EReal) :
    a * Ideal.div (Ideal.ofBits .f32 0x3F800000#32) (max deg (Ideal.ofBits .f32 0x3F800000#32))
      = Ideal.div a (max deg (Ideal.ofBits .f32 0x3F800000#32)) := by
  rw [ofBits_one_f32]
  exact mul_one_div a (max deg 1) (max_one_ne_zero deg)

end Cert.MeanLaw

end
-- ==== Proof.Bridge.lean ====
/-
  The two programs compute one function, at the ideal values.

  Layer by layer the programs differ in two places only.
  (1) The kernel program multiplies the features by ONE stacked weight (the self weight's rows, then the neighbour
  weight's rows, transposed) and cuts the product in two column ranges; the reference multiplies by each transposed weight
  separately.  Entry (i, j) of the product with the stacked weight is sum_k x[i, k] * stacked[k, j], and column j of the
  stacked weight is row j of the self weight for j < h and row j - h of the neighbour weight from there on: so columns
  0..h-1 of the product are the self projection and columns h..2h-1 the neighbour projection, sum for sum.
  (2) The kernel program multiplies the neighbour sum by the reciprocal of the clamped in-degree, the reference divides by
  the clamped in-degree: the same on the extended reals because the clamped in-degree is a maximum with 1 (MeanLaw).
  Everything else — the gather along the sources, the scatter-add along the destinations, the degree count, the bias,
  the maximum with 0 — is the same operation on both sides, applied to equal operands.
-/
import proofs.«154534_j5523327943254_1_alg».proof.Proof.KernelValue
import proofs.«154534_j5523327943254_1_alg».proof.Proof.MeanLaw
import proofs.«154534_j5523327943254_1_alg».proof.Proof.Gen.ReferenceIdeal.Read
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem

/-! ## The stacked weights at an index -/

/-- Column `i 1` < 32 of the stacked layer-1 weight is row `i 1` of the first weight. -/
theorem stackT1_fst (a b : (⟨Cert.KernelIdeal.S32x768, .f32⟩ : BufTy).Contents (Elt Ideal)) (i : Cert.KernelIdeal.S768x64.Idx) (i' : Cert.KernelIdeal.S32x768.Idx)
    (h0 : (i' 0).val = (i 1).val) (h1 : (i' 1).val = (i 0).val) : Cert.KernelIdeal.Val.stackT1 (F := Ideal) a b i = a i' := by
  unfold Cert.KernelIdeal.Val.stackT1
  show transpose Cert.KernelIdeal.S768x64 [1, 0] (concatenate Cert.KernelIdeal.S64x768 0 [⟨Cert.KernelIdeal.S32x768, a⟩, ⟨Cert.KernelIdeal.S32x768, b⟩] Cert.KernelIdeal.Gen.concatenates_S32x768_S32x768_S64x768_d0) Cert.KernelIdeal.Gen.transposes_S64x768_S768x64_1_0 i = _
  let k : Cert.KernelIdeal.S64x768.Idx := fun a => match a with
    | ⟨0, _⟩ => ⟨(i 1).val, (i 1).isLt⟩
    | ⟨1, _⟩ => ⟨(i 0).val, (i 0).isLt⟩
  refine (transpose_apply [1, 0] _ Cert.KernelIdeal.Gen.transposes_S64x768_S768x64_1_0 i k (fun b => match b with
    | ⟨0, _⟩ => rfl
    | ⟨1, _⟩ => rfl)).trans ?_
  exact concatenate_pair_apply_left 0 a b Cert.KernelIdeal.Gen.concatenates_S32x768_S32x768_S64x768_d0 k rfl i' (fun b => match b with
    | ⟨0, _⟩ => h0
    | ⟨1, _⟩ => h1)

/-- Column `i 1` ≥ 32 of the stacked layer-1 weight is row `i 1 - 32` of the second weight. -/
theorem stackT1_snd (a b : (⟨Cert.KernelIdeal.S32x768, .f32⟩ : BufTy).Contents (Elt Ideal)) (i : Cert.KernelIdeal.S768x64.Idx) (i' : Cert.KernelIdeal.S32x768.Idx)
    (h0 : (i' 0).val + 32 = (i 1).val) (h1 : (i' 1).val = (i 0).val) : Cert.KernelIdeal.Val.stackT1 (F := Ideal) a b i = b i' := by
  unfold Cert.KernelIdeal.Val.stackT1
  show transpose Cert.KernelIdeal.S768x64 [1, 0] (concatenate Cert.KernelIdeal.S64x768 0 [⟨Cert.KernelIdeal.S32x768, a⟩, ⟨Cert.KernelIdeal.S32x768, b⟩] Cert.KernelIdeal.Gen.concatenates_S32x768_S32x768_S64x768_d0) Cert.KernelIdeal.Gen.transposes_S64x768_S768x64_1_0 i = _
  let k : Cert.KernelIdeal.S64x768.Idx := fun a => match a with
    | ⟨0, _⟩ => ⟨(i 1).val, (i 1).isLt⟩
    | ⟨1, _⟩ => ⟨(i 0).val, (i 0).isLt⟩
  refine (transpose_apply [1, 0] _ Cert.KernelIdeal.Gen.transposes_S64x768_S768x64_1_0 i k (fun b => match b with
    | ⟨0, _⟩ => rfl
    | ⟨1, _⟩ => rfl)).trans ?_
  exact concatenate_pair_apply_right 0 a b Cert.KernelIdeal.Gen.concatenates_S32x768_S32x768_S64x768_d0 k rfl rfl i' (fun b => match b with
    | ⟨0, _⟩ => fun hne => absurd rfl hne
    | ⟨1, _⟩ => fun _ => h1) h0

/-- The same two facts for the stacked layer-2 weight: columns 0..7 are the first weight's rows, -/
theorem stackT2_fst (a b : (⟨Cert.KernelIdeal.S8x32, .f32⟩ : BufTy).Contents (Elt Ideal)) (i : Cert.KernelIdeal.S32x16.Idx) (i' : Cert.KernelIdeal.S8x32.Idx)
    (h0 : (i' 0).val = (i 1).val) (h1 : (i' 1).val = (i 0).val) : Cert.KernelIdeal.Val.stackT2 (F := Ideal) a b i = a i' := by
  unfold Cert.KernelIdeal.Val.stackT2
  show transpose Cert.KernelIdeal.S32x16 [1, 0] (concatenate Cert.KernelIdeal.S16x32 0 [⟨Cert.KernelIdeal.S8x32, a⟩, ⟨Cert.KernelIdeal.S8x32, b⟩] Cert.KernelIdeal.Gen.concatenates_S8x32_S8x32_S16x32_d0) Cert.KernelIdeal.Gen.transposes_S16x32_S32x16_1_0 i = _
  let k : Cert.KernelIdeal.S16x32.Idx := fun a => match a with
    | ⟨0, _⟩ => ⟨(i 1).val, (i 1).isLt⟩
    | ⟨1, _⟩ => ⟨(i 0).val, (i 0).isLt⟩
  refine (transpose_apply [1, 0] _ Cert.KernelIdeal.Gen.transposes_S16x32_S32x16_1_0 i k (fun b => match b with
    | ⟨0, _⟩ => rfl
    | ⟨1, _⟩ => rfl)).trans ?_
  exact concatenate_pair_apply_left 0 a b Cert.KernelIdeal.Gen.concatenates_S8x32_S8x32_S16x32_d0 k rfl i' (fun b => match b with
    | ⟨0, _⟩ => h0
    | ⟨1, _⟩ => h1)

/-- and columns 8..15 the second's. -/
theorem stackT2_snd (a b : (⟨Cert.KernelIdeal.S8x32, .f32⟩ : BufTy).Contents (Elt Ideal)) (i : Cert.KernelIdeal.S32x16.Idx) (i' : Cert.KernelIdeal.S8x32.Idx)
    (h0 : (i' 0).val + 8 = (i 1).val) (h1 : (i' 1).val = (i 0).val) : Cert.KernelIdeal.Val.stackT2 (F := Ideal) a b i = b i' := by
  unfold Cert.KernelIdeal.Val.stackT2
  show transpose Cert.KernelIdeal.S32x16 [1, 0] (concatenate Cert.KernelIdeal.S16x32 0 [⟨Cert.KernelIdeal.S8x32, a⟩, ⟨Cert.KernelIdeal.S8x32, b⟩] Cert.KernelIdeal.Gen.concatenates_S8x32_S8x32_S16x32_d0) Cert.KernelIdeal.Gen.transposes_S16x32_S32x16_1_0 i = _
  let k : Cert.KernelIdeal.S16x32.Idx := fun a => match a with
    | ⟨0, _⟩ => ⟨(i 1).val, (i 1).isLt⟩
    | ⟨1, _⟩ => ⟨(i 0).val, (i 0).isLt⟩
  refine (transpose_apply [1, 0] _ Cert.KernelIdeal.Gen.transposes_S16x32_S32x16_1_0 i k (fun b => match b with
    | ⟨0, _⟩ => rfl
    | ⟨1, _⟩ => rfl)).trans ?_
  exact concatenate_pair_apply_right 0 a b Cert.KernelIdeal.Gen.concatenates_S8x32_S8x32_S16x32_d0 k rfl rfl i' (fun b => match b with
    | ⟨0, _⟩ => fun hne => absurd rfl hne
    | ⟨1, _⟩ => fun _ => h1) h0

/-! ## The column ranges of the products are the two projections -/

/-- Columns 0..31 of the features times the stacked weight: the self projection of layer 1. -/
theorem self1_eq (x0 : (⟨Cert.KernelIdeal.S100000x768, .f32⟩ : BufTy).Contents (Elt Ideal)) (a3 a4 : (⟨Cert.KernelIdeal.S32x768, .f32⟩ : BufTy).Contents (Elt Ideal)) :
    extractStridedSlice Cert.KernelIdeal.S100000x32 ![0, 0] (Cert.KernelIdeal.Region0.prod x0 (Cert.KernelIdeal.Val.stackT1 a3 a4)) Cert.KernelIdeal.Gen.slices_S100000x64_S100000x32_0_0
      = Cert.ReferenceIdeal.Read.val_main_v22 (F := Ideal) x0 a3 := by
  funext i
  have hi1 : (i 1).val < 32 := (i 1).isLt
  let k : Cert.KernelIdeal.S100000x64.Idx := fun a => match a with
    | ⟨0, _⟩ => ⟨(i 0).val, (i 0).isLt⟩
    | ⟨1, _⟩ => ⟨0 + (i 1).val, by show 0 + (i 1).val < 64; omega⟩
  refine (extractStridedSlice_apply ![0, 0] (Cert.KernelIdeal.Region0.prod x0 (Cert.KernelIdeal.Val.stackT1 a3 a4)) Cert.KernelIdeal.Gen.slices_S100000x64_S100000x32_0_0 i k (fun a => match a with
    | ⟨0, _⟩ => (Nat.zero_add _).symm
    | ⟨1, _⟩ => rfl)).trans ?_
  rw [Cert.ReferenceIdeal.Read.val_main_v22_apply]
  unfold Cert.KernelIdeal.Region0.prod
  refine Finset.sum_congr rfl fun kk _ => ?_
  rw [Cert.ReferenceIdeal.Read.val_main_v21_apply]
  congr 1
  exact stackT1_fst a3 a4 _ _ (Nat.zero_add _).symm rfl

/-- Columns 32..63: the neighbour projection of layer 1. -/
theorem neigh1_eq (x0 : (⟨Cert.KernelIdeal.S100000x768, .f32⟩ : BufTy).Contents (Elt Ideal)) (a3 a4 : (⟨Cert.KernelIdeal.S32x768, .f32⟩ : BufTy).Contents (Elt Ideal)) :
    extractStridedSlice Cert.KernelIdeal.S100000x32 ![0, 32] (Cert.KernelIdeal.Region0.prod x0 (Cert.KernelIdeal.Val.stackT1 a3 a4)) Cert.KernelIdeal.Gen.slices_S100000x64_S100000x32_0_32
      = Cert.ReferenceIdeal.Read.val_main_v1 (F := Ideal) x0 a4 := by
  funext i
  have hi1 : (i 1).val < 32 := (i 1).isLt
  let k : Cert.KernelIdeal.S100000x64.Idx := fun a => match a with
    | ⟨0, _⟩ => ⟨(i 0).val, (i 0).isLt⟩
    | ⟨1, _⟩ => ⟨32 + (i 1).val, by show 32 + (i 1).val < 64; omega⟩
  refine (extractStridedSlice_apply ![0, 32] (Cert.KernelIdeal.Region0.prod x0 (Cert.KernelIdeal.Val.stackT1 a3 a4)) Cert.KernelIdeal.Gen.slices_S100000x64_S100000x32_0_32 i k (fun a => match a with
    | ⟨0, _⟩ => (Nat.zero_add _).symm
    | ⟨1, _⟩ => rfl)).trans ?_
  rw [Cert.ReferenceIdeal.Read.val_main_v1_apply]
  unfold Cert.KernelIdeal.Region0.prod
  refine Finset.sum_congr rfl fun kk _ => ?_
  rw [Cert.ReferenceIdeal.Read.val_main_v0_apply]
  congr 1
  exact stackT1_snd a3 a4 _ _ (Nat.add_comm _ _) rfl

/-! ## The mean: the product with the reciprocal is the quotient -/

/-- The splat of the word of 1.0 over the nodes, at a node. -/
theorem one_apply (j : Cert.KernelIdeal.S100000.Idx) :
    broadcastInDim Cert.KernelIdeal.S100000 ![] Cert.KernelIdeal.Gen.bcast_S_S100000 (constant (F := Ideal) Cert.KernelIdeal.S_ .f32 0x3F800000#32) j = Ideal.ofBits .f32 0x3F800000#32 :=
  (broadcastInDim_apply _ Cert.KernelIdeal.Gen.bcast_S_S100000 _ j (fun a => a.elim0) (fun a => a.elim0)).trans (ValueIdx.constant_apply _ _)

/-- A per-node array as a column, and a column broadcast along 32 or 8 columns, at an index: the node's entry. -/
theorem bcol_apply (y : (⟨Cert.KernelIdeal.S100000, .f32⟩ : BufTy).Contents (Elt Ideal)) (i : Cert.KernelIdeal.S100000x1.Idx) :
    broadcastInDim Cert.KernelIdeal.S100000x1 ![0] Cert.KernelIdeal.Gen.bcast_S100000_S100000x1_0 y i = y (Cert.ReferenceIdeal.Read.idx_main_v18 i) :=
  broadcastInDim_apply _ Cert.KernelIdeal.Gen.bcast_S100000_S100000x1_0 y i (Cert.ReferenceIdeal.Read.idx_main_v18 i) (fun a => match a with
    | ⟨0, _⟩ => by show (i 0).val = if (100000 : Nat) = 1 then 0 else (i 0).val; rw [if_neg (by decide)])
theorem b32_apply (y : (⟨Cert.KernelIdeal.S100000x1, .f32⟩ : BufTy).Contents (Elt Ideal)) (i : Cert.KernelIdeal.S100000x32.Idx) :
    broadcastInDim Cert.KernelIdeal.S100000x32 ![0, 1] Cert.KernelIdeal.Gen.bcast_S100000x1_S100000x32_0_1 y i = y (Cert.ReferenceIdeal.Read.idx_main_v19 i) :=
  broadcastInDim_apply _ Cert.KernelIdeal.Gen.bcast_S100000x1_S100000x32_0_1 y i (Cert.ReferenceIdeal.Read.idx_main_v19 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])
theorem b8_apply (y : (⟨Cert.KernelIdeal.S100000x1, .f32⟩ : BufTy).Contents (Elt Ideal)) (i : Cert.KernelIdeal.S100000x8.Idx) :
    broadcastInDim Cert.KernelIdeal.S100000x8 ![0, 1] Cert.KernelIdeal.Gen.bcast_S100000x1_S100000x8_0_1 y i = y (Cert.ReferenceIdeal.Read.idx_main_v47 i) :=
  broadcastInDim_apply _ Cert.KernelIdeal.Gen.bcast_S100000x1_S100000x8_0_1 y i (Cert.ReferenceIdeal.Read.idx_main_v47 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- For ANY per-node degree array: the sum times the broadcast reciprocal of the degree clamped below by 1 is the sum
    over the broadcast clamped degree (row by row, MeanLaw). -/
theorem mean32g (A : (⟨Cert.KernelIdeal.S100000x32, .f32⟩ : BufTy).Contents (Elt Ideal)) (deg : (⟨Cert.KernelIdeal.S100000, .f32⟩ : BufTy).Contents (Elt Ideal)) :
    mulf A (broadcastInDim Cert.KernelIdeal.S100000x32 ![0, 1] Cert.KernelIdeal.Gen.bcast_S100000x1_S100000x32_0_1 (broadcastInDim Cert.KernelIdeal.S100000x1 ![0] Cert.KernelIdeal.Gen.bcast_S100000_S100000x1_0 (Host.divf (broadcastInDim Cert.KernelIdeal.S100000 ![] Cert.KernelIdeal.Gen.bcast_S_S100000 (constant (F := Ideal) Cert.KernelIdeal.S_ .f32 0x3F800000#32)) (maximumf deg (broadcastInDim Cert.KernelIdeal.S100000 ![] Cert.KernelIdeal.Gen.bcast_S_S100000 (constant (F := Ideal) Cert.KernelIdeal.S_ .f32 0x3F800000#32))))))
      = Host.divf A (broadcastInDim Cert.KernelIdeal.S100000x32 ![0, 1] Cert.KernelIdeal.Gen.bcast_S100000x1_S100000x32_0_1 (broadcastInDim Cert.KernelIdeal.S100000x1 ![0] Cert.KernelIdeal.Gen.bcast_S100000_S100000x1_0 (maximumf deg (broadcastInDim Cert.KernelIdeal.S100000 ![] Cert.KernelIdeal.Gen.bcast_S_S100000 (constant (F := Ideal) Cert.KernelIdeal.S_ .f32 0x3F800000#32))))) := by
  funext i
  show A i * (broadcastInDim Cert.KernelIdeal.S100000x32 ![0, 1] Cert.KernelIdeal.Gen.bcast_S100000x1_S100000x32_0_1 (broadcastInDim Cert.KernelIdeal.S100000x1 ![0] Cert.KernelIdeal.Gen.bcast_S100000_S100000x1_0 (Host.divf (broadcastInDim Cert.KernelIdeal.S100000 ![] Cert.KernelIdeal.Gen.bcast_S_S100000 (constant (F := Ideal) Cert.KernelIdeal.S_ .f32 0x3F800000#32)) (maximumf deg (broadcastInDim Cert.KernelIdeal.S100000 ![] Cert.KernelIdeal.Gen.bcast_S_S100000 (constant (F := Ideal) Cert.KernelIdeal.S_ .f32 0x3F800000#32)))))) i
      = Ideal.div (A i) ((broadcastInDim Cert.KernelIdeal.S100000x32 ![0, 1] Cert.KernelIdeal.Gen.bcast_S100000x1_S100000x32_0_1 (broadcastInDim Cert.KernelIdeal.S100000x1 ![0] Cert.KernelIdeal.Gen.bcast_S100000_S100000x1_0 (maximumf deg (broadcastInDim Cert.KernelIdeal.S100000 ![] Cert.KernelIdeal.Gen.bcast_S_S100000 (constant (F := Ideal) Cert.KernelIdeal.S_ .f32 0x3F800000#32))))) i)
  rw [b32_apply, bcol_apply, b32_apply, bcol_apply]
  show A i * Ideal.div ((broadcastInDim Cert.KernelIdeal.S100000 ![] Cert.KernelIdeal.Gen.bcast_S_S100000 (constant (F := Ideal) Cert.KernelIdeal.S_ .f32 0x3F800000#32)) (Cert.ReferenceIdeal.Read.idx_main_v18 (Cert.ReferenceIdeal.Read.idx_main_v19 i))) (max (deg (Cert.ReferenceIdeal.Read.idx_main_v18 (Cert.ReferenceIdeal.Read.idx_main_v19 i))) ((broadcastInDim Cert.KernelIdeal.S100000 ![] Cert.KernelIdeal.Gen.bcast_S_S100000 (constant (F := Ideal) Cert.KernelIdeal.S_ .f32 0x3F800000#32)) (Cert.ReferenceIdeal.Read.idx_main_v18 (Cert.ReferenceIdeal.Read.idx_main_v19 i))))
      = Ideal.div (A i) (max (deg (Cert.ReferenceIdeal.Read.idx_main_v18 (Cert.ReferenceIdeal.Read.idx_main_v19 i))) ((broadcastInDim Cert.KernelIdeal.S100000 ![] Cert.KernelIdeal.Gen.bcast_S_S100000 (constant (F := Ideal) Cert.KernelIdeal.S_ .f32 0x3F800000#32)) (Cert.ReferenceIdeal.Read.idx_main_v18 (Cert.ReferenceIdeal.Read.idx_main_v19 i))))
  rw [one_apply]
  exact Cert.MeanLaw.mul_inv_clamped _ _
theorem mean8g (A : (⟨Cert.KernelIdeal.S100000x8, .f32⟩ : BufTy).Contents (Elt Ideal)) (deg : (⟨Cert.KernelIdeal.S100000, .f32⟩ : BufTy).Contents (Elt Ideal)) :
    mulf A (broadcastInDim Cert.KernelIdeal.S100000x8 ![0, 1] Cert.KernelIdeal.Gen.bcast_S100000x1_S100000x8_0_1 (broadcastInDim Cert.KernelIdeal.S100000x1 ![0] Cert.KernelIdeal.Gen.bcast_S100000_S100000x1_0 (Host.divf (broadcastInDim Cert.KernelIdeal.S100000 ![] Cert.KernelIdeal.Gen.bcast_S_S100000 (constant (F := Ideal) Cert.KernelIdeal.S_ .f32 0x3F800000#32)) (maximumf deg (broadcastInDim Cert.KernelIdeal.S100000 ![] Cert.KernelIdeal.Gen.bcast_S_S100000 (constant (F := Ideal) Cert.KernelIdeal.S_ .f32 0x3F800000#32))))))
      = Host.divf A (broadcastInDim Cert.KernelIdeal.S100000x8 ![0, 1] Cert.KernelIdeal.Gen.bcast_S100000x1_S100000x8_0_1 (broadcastInDim Cert.KernelIdeal.S100000x1 ![0] Cert.KernelIdeal.Gen.bcast_S100000_S100000x1_0 (maximumf deg (broadcastInDim Cert.KernelIdeal.S100000 ![] Cert.KernelIdeal.Gen.bcast_S_S100000 (constant (F := Ideal) Cert.KernelIdeal.S_ .f32 0x3F800000#32))))) := by
  funext i
  show A i * (broadcastInDim Cert.KernelIdeal.S100000x8 ![0, 1] Cert.KernelIdeal.Gen.bcast_S100000x1_S100000x8_0_1 (broadcastInDim Cert.KernelIdeal.S100000x1 ![0] Cert.KernelIdeal.Gen.bcast_S100000_S100000x1_0 (Host.divf (broadcastInDim Cert.KernelIdeal.S100000 ![] Cert.KernelIdeal.Gen.bcast_S_S100000 (constant (F := Ideal) Cert.KernelIdeal.S_ .f32 0x3F800000#32)) (maximumf deg (broadcastInDim Cert.KernelIdeal.S100000 ![] Cert.KernelIdeal.Gen.bcast_S_S100000 (constant (F := Ideal) Cert.KernelIdeal.S_ .f32 0x3F800000#32)))))) i
      = Ideal.div (A i) ((broadcastInDim Cert.KernelIdeal.S100000x8 ![0, 1] Cert.KernelIdeal.Gen.bcast_S100000x1_S100000x8_0_1 (broadcastInDim Cert.KernelIdeal.S100000x1 ![0] Cert.KernelIdeal.Gen.bcast_S100000_S100000x1_0 (maximumf deg (broadcastInDim Cert.KernelIdeal.S100000 ![] Cert.KernelIdeal.Gen.bcast_S_S100000 (constant (F := Ideal) Cert.KernelIdeal.S_ .f32 0x3F800000#32))))) i)
  rw [b8_apply, bcol_apply, b8_apply, bcol_apply]
  show A i * Ideal.div ((broadcastInDim Cert.KernelIdeal.S100000 ![] Cert.KernelIdeal.Gen.bcast_S_S100000 (constant (F := Ideal) Cert.KernelIdeal.S_ .f32 0x3F800000#32)) (Cert.ReferenceIdeal.Read.idx_main_v18 (Cert.ReferenceIdeal.Read.idx_main_v47 i))) (max (deg (Cert.ReferenceIdeal.Read.idx_main_v18 (Cert.ReferenceIdeal.Read.idx_main_v47 i))) ((broadcastInDim Cert.KernelIdeal.S100000 ![] Cert.KernelIdeal.Gen.bcast_S_S100000 (constant (F := Ideal) Cert.KernelIdeal.S_ .f32 0x3F800000#32)) (Cert.ReferenceIdeal.Read.idx_main_v18 (Cert.ReferenceIdeal.Read.idx_main_v47 i))))
      = Ideal.div (A i) (max (deg (Cert.ReferenceIdeal.Read.idx_main_v18 (Cert.ReferenceIdeal.Read.idx_main_v47 i))) ((broadcastInDim Cert.KernelIdeal.S100000 ![] Cert.KernelIdeal.Gen.bcast_S_S100000 (constant (F := Ideal) Cert.KernelIdeal.S_ .f32 0x3F800000#32)) (Cert.ReferenceIdeal.Read.idx_main_v18 (Cert.ReferenceIdeal.Read.idx_main_v47 i))))
  rw [one_apply]
  exact Cert.MeanLaw.mul_inv_clamped _ _

/-! ## The shared chains -/

/-- The neighbour sum of layer 1 is the same gather and scatter-add in both programs. -/
theorem agg32_neigh (x0 : (⟨Cert.KernelIdeal.S100000x768, .f32⟩ : BufTy).Contents (Elt Ideal)) (src dst : (⟨Cert.KernelIdeal.S3200000, .i32⟩ : BufTy).Contents (Elt Ideal)) (a4 : (⟨Cert.KernelIdeal.S32x768, .f32⟩ : BufTy).Contents (Elt Ideal)) :
    Cert.KernelIdeal.Val.agg32 (F := Ideal) (Cert.ReferenceIdeal.Read.val_main_v1 (F := Ideal) x0 a4) src dst = Cert.ReferenceIdeal.Read.val_main_v11 (F := Ideal) x0 src dst a4 := rfl

/-- LAYER 1: the kernel program's hidden array is the reference's. The two column ranges of the fused product are the
    two projections, the neighbour sum is the same chain, the product with the reciprocal is the quotient; what is left
    on both sides is the same additions, broadcast bias and maximum with 0, operation for operation. -/
theorem hidden_eq (x0 : (⟨Cert.KernelIdeal.S100000x768, .f32⟩ : BufTy).Contents (Elt Ideal)) (src dst : (⟨Cert.KernelIdeal.S3200000, .i32⟩ : BufTy).Contents (Elt Ideal)) (a3 a4 : (⟨Cert.KernelIdeal.S32x768, .f32⟩ : BufTy).Contents (Elt Ideal)) (b1 : (⟨Cert.KernelIdeal.S32, .f32⟩ : BufTy).Contents (Elt Ideal)) :
    Cert.KernelIdeal.Val.hidden (F := Ideal) (Cert.KernelIdeal.Region0.prod x0 (Cert.KernelIdeal.Val.stackT1 a3 a4)) src dst b1 = Cert.ReferenceIdeal.Read.val_main_v27 (F := Ideal) x0 src dst a3 a4 b1 := by
  unfold Cert.KernelIdeal.Val.hidden Cert.KernelIdeal.Val.invCol Cert.KernelIdeal.Val.clampedDeg
  rw [self1_eq, neigh1_eq, agg32_neigh, mean32g]
  rfl

/-! ## Layer 2 -/

/-- Columns 0..7 of the hidden array times the stacked layer-2 weight: the self projection of layer 2. -/
theorem self2_eq (x0 : (⟨Cert.KernelIdeal.S100000x768, .f32⟩ : BufTy).Contents (Elt Ideal)) (x1 x2 : (⟨Cert.KernelIdeal.S3200000, .i32⟩ : BufTy).Contents (Elt Ideal)) (x3 x4 : (⟨Cert.KernelIdeal.S32x768, .f32⟩ : BufTy).Contents (Elt Ideal)) (x5 : (⟨Cert.KernelIdeal.S32, .f32⟩ : BufTy).Contents (Elt Ideal)) (a6 a7 : (⟨Cert.KernelIdeal.S8x32, .f32⟩ : BufTy).Contents (Elt Ideal)) :
    extractStridedSlice Cert.KernelIdeal.S100000x8 ![0, 0] (Cert.KernelIdeal.Region1.prod (Cert.ReferenceIdeal.Read.val_main_v27 (F := Ideal) x0 x1 x2 x3 x4 x5) (Cert.KernelIdeal.Val.stackT2 a6 a7)) Cert.KernelIdeal.Gen.slices_S100000x16_S100000x8_0_0
      = Cert.ReferenceIdeal.Read.val_main_v50 (F := Ideal) x0 x1 x2 x3 x4 x5 a6 := by
  funext i
  have hi1 : (i 1).val < 8 := (i 1).isLt
  let k : Cert.KernelIdeal.S100000x16.Idx := fun a => match a with
    | ⟨0, _⟩ => ⟨(i 0).val, (i 0).isLt⟩
    | ⟨1, _⟩ => ⟨0 + (i 1).val, by show 0 + (i 1).val < 16; omega⟩
  refine (extractStridedSlice_apply ![0, 0] (Cert.KernelIdeal.Region1.prod (Cert.ReferenceIdeal.Read.val_main_v27 (F := Ideal) x0 x1 x2 x3 x4 x5) (Cert.KernelIdeal.Val.stackT2 a6 a7)) Cert.KernelIdeal.Gen.slices_S100000x16_S100000x8_0_0 i k (fun a => match a with
    | ⟨0, _⟩ => (Nat.zero_add _).symm
    | ⟨1, _⟩ => rfl)).trans ?_
  rw [Cert.ReferenceIdeal.Read.val_main_v50_apply]
  unfold Cert.KernelIdeal.Region1.prod
  refine Finset.sum_congr rfl fun kk _ => ?_
  rw [Cert.ReferenceIdeal.Read.val_main_v49_apply]
  congr 1
  exact stackT2_fst a6 a7 _ _ (Nat.zero_add _).symm rfl

/-- Columns 8..15: the neighbour projection of layer 2. -/
theorem neigh2_eq (x0 : (⟨Cert.KernelIdeal.S100000x768, .f32⟩ : BufTy).Contents (Elt Ideal)) (x1 x2 : (⟨Cert.KernelIdeal.S3200000, .i32⟩ : BufTy).Contents (Elt Ideal)) (x3 x4 : (⟨Cert.KernelIdeal.S32x768, .f32⟩ : BufTy).Contents (Elt Ideal)) (x5 : (⟨Cert.KernelIdeal.S32, .f32⟩ : BufTy).Contents (Elt Ideal)) (a6 a7 : (⟨Cert.KernelIdeal.S8x32, .f32⟩ : BufTy).Contents (Elt Ideal)) :
    extractStridedSlice Cert.KernelIdeal.S100000x8 ![0, 8] (Cert.KernelIdeal.Region1.prod (Cert.ReferenceIdeal.Read.val_main_v27 (F := Ideal) x0 x1 x2 x3 x4 x5) (Cert.KernelIdeal.Val.stackT2 a6 a7)) Cert.KernelIdeal.Gen.slices_S100000x16_S100000x8_0_8
      = Cert.ReferenceIdeal.Read.val_main_v29 (F := Ideal) x0 x1 x2 x3 x4 x5 a7 := by
  funext i
  have hi1 : (i 1).val < 8 := (i 1).isLt
  let k : Cert.KernelIdeal.S100000x16.Idx := fun a => match a with
    | ⟨0, _⟩ => ⟨(i 0).val, (i 0).isLt⟩
    | ⟨1, _⟩ => ⟨8 + (i 1).val, by show 8 + (i 1).val < 16; omega⟩
  refine (extractStridedSlice_apply ![0, 8] (Cert.KernelIdeal.Region1.prod (Cert.ReferenceIdeal.Read.val_main_v27 (F := Ideal) x0 x1 x2 x3 x4 x5) (Cert.KernelIdeal.Val.stackT2 a6 a7)) Cert.KernelIdeal.Gen.slices_S100000x16_S100000x8_0_8 i k (fun a => match a with
    | ⟨0, _⟩ => (Nat.zero_add _).symm
    | ⟨1, _⟩ => rfl)).trans ?_
  rw [Cert.ReferenceIdeal.Read.val_main_v29_apply]
  unfold Cert.KernelIdeal.Region1.prod
  refine Finset.sum_congr rfl fun kk _ => ?_
  rw [Cert.ReferenceIdeal.Read.val_main_v28_apply]
  congr 1
  exact stackT2_snd a6 a7 _ _ (Nat.add_comm _ _) rfl

/-- The neighbour sum of layer 2 is the same gather and scatter-add in both programs. -/
theorem agg8_neigh (x0 : (⟨Cert.KernelIdeal.S100000x768, .f32⟩ : BufTy).Contents (Elt Ideal)) (x1 x2 : (⟨Cert.KernelIdeal.S3200000, .i32⟩ : BufTy).Contents (Elt Ideal)) (x3 x4 : (⟨Cert.KernelIdeal.S32x768, .f32⟩ : BufTy).Contents (Elt Ideal)) (x5 : (⟨Cert.KernelIdeal.S32, .f32⟩ : BufTy).Contents (Elt Ideal)) (a7 : (⟨Cert.KernelIdeal.S8x32, .f32⟩ : BufTy).Contents (Elt Ideal)) :
    Cert.KernelIdeal.Val.agg8 (F := Ideal) (Cert.ReferenceIdeal.Read.val_main_v29 (F := Ideal) x0 x1 x2 x3 x4 x5 a7) x1 x2 = Cert.ReferenceIdeal.Read.val_main_v39 (F := Ideal) x0 x1 x2 x3 x4 x5 a7 := rfl

/-- THE TWO PROGRAMS' RESULTS: the kernel program's term of the arguments is the reference's. Layer 1's hidden array is
    the reference's; over it layer 2 repeats the argument (column ranges, the same neighbour chain, the reciprocal
    computed before the second pallas_call against the reference's second division), without the maximum. -/
theorem term_eq (x0 : (⟨Cert.KernelIdeal.S100000x768, .f32⟩ : BufTy).Contents (Elt Ideal)) (x1 x2 : (⟨Cert.KernelIdeal.S3200000, .i32⟩ : BufTy).Contents (Elt Ideal)) (x3 x4 : (⟨Cert.KernelIdeal.S32x768, .f32⟩ : BufTy).Contents (Elt Ideal)) (x5 : (⟨Cert.KernelIdeal.S32, .f32⟩ : BufTy).Contents (Elt Ideal)) (a6 a7 : (⟨Cert.KernelIdeal.S8x32, .f32⟩ : BufTy).Contents (Elt Ideal)) (b2 : (⟨Cert.KernelIdeal.S8, .f32⟩ : BufTy).Contents (Elt Ideal)) :
    Cert.KernelIdeal.Val.term x0 x1 x2 x3 x4 x5 a6 a7 b2 = Cert.ReferenceIdeal.Read.val_main_v54 (F := Ideal) x0 x1 x2 x3 x4 x5 a6 a7 b2 := by
  unfold Cert.KernelIdeal.Val.term Cert.KernelIdeal.Val.outOf Cert.KernelIdeal.Val.invCol Cert.KernelIdeal.Val.clampedDeg
  rw [hidden_eq, self2_eq, neigh2_eq, agg8_neigh, mean8g]
  rfl

end Cert.Bridge

end
-- ==== Proof.lean ====
/-
  The certificate of a two-layer mean-aggregation graph network: a Pallas program against its plain reference.

  Both programs compute, per layer, self(x) + mean over incoming edges of neigh(x) + bias, with a maximum with 0 after
  layer 1; self and neigh are products with two weights.  The kernel program fuses the two products of a layer into one
  pallas_call (the two weights stacked, the [100000, 2h] product cut in two afterwards) and multiplies the neighbour sum by a
  reciprocal computed once, where the reference takes two products and divides.  At the ideal values a change of float
  format is the identity, so the fused product's column ranges are the two products sum for sum, and the reciprocal of a
  clamped in-degree (a maximum with 1, never zero) turns the product into the quotient.

  The frames of the two kernel programs are the generated ones; the reference's frame is its generated run with the
  result dropped.  The ideal pass rewrote nothing, so there is nothing to preserve.  For the value claim the kernel
  program's run is the launch of its seven segments with the result named (KernelRun), its result the composed term of
  the arguments (Region0, Region1, KernelValue), and that term is the reference's (Bridge, MeanLaw).
-/
import proofs.«154534_j5523327943254_1_alg».proof.Defs
import proofs.«154534_j5523327943254_1_alg».proof.Proof.Gen.Kernel
import proofs.«154534_j5523327943254_1_alg».proof.Proof.Gen.Kernel.Skeleton
import proofs.«154534_j5523327943254_1_alg».proof.Proof.Gen.Kernel.Launch
import proofs.«154534_j5523327943254_1_alg».proof.Proof.Gen.Kernel.Points
import proofs.«154534_j5523327943254_1_alg».proof.Proof.Gen.Kernel.Frame
import proofs.«154534_j5523327943254_1_alg».proof.Proof.Gen.KernelIdeal
import proofs.«154534_j5523327943254_1_alg».proof.Proof.Gen.KernelIdeal.Skeleton
import proofs.«154534_j5523327943254_1_alg».proof.Proof.Gen.KernelIdeal.Launch
import proofs.«154534_j5523327943254_1_alg».proof.Proof.Gen.KernelIdeal.Points
import proofs.«154534_j5523327943254_1_alg».proof.Proof.Gen.KernelIdeal.Frame
import proofs.«154534_j5523327943254_1_alg».proof.Proof.Gen.ReferenceIdeal
import proofs.«154534_j5523327943254_1_alg».proof.Proof.Gen.ReferenceIdeal.Run
import proofs.«154534_j5523327943254_1_alg».proof.Proof.Gen.ReferenceIdeal.Read
import proofs.«154534_j5523327943254_1_alg».proof.Proof.Gen.Pre_finite_inputs
import proofs.«154534_j5523327943254_1_alg».proof.Proof.KernelRun
import proofs.«154534_j5523327943254_1_alg».proof.Proof.KernelValue
import proofs.«154534_j5523327943254_1_alg».proof.Proof.Bridge
import Idealize.ShloMosaic.Adequacy
import Idealize.ShloMosaic.Init

noncomputable section

namespace Cert.Proof

open Idealize.ShloMosaic Idealize.ShloMosaic.TcCoe Idealize.SL.Sem

/-- The reference terminates without a fault and leaves its arguments as launched: its run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the same [100000, 8] array: the kernel
    program's at its composed term of the arguments, the reference's at its own, and the two terms are one function. -/
theorem algebraic : Cert.algebraic_KernelIdeal_ReferenceIdeal := by
  intro m ρ m' ρ' _ hagree
  refine ⟨fun c => Cert.KernelIdeal.Gen.W7 m ρ c (Proc.devRef .tc Cert.KernelIdeal.main_v53), Cert.KernelIdeal.Gen.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v54_eq, e0, e1, e2, e3, e4, e5, e6, e7, e8]
  show _ = Cert.KernelIdeal.Gen.W7 m ρ c (Proc.devRef .tc Cert.KernelIdeal.main_v53)
  rw [Cert.KernelIdeal.Val.result m ρ c]
  exact (Cert.Bridge.term_eq _ _ _ _ _ _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
